-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8x4096x16 : Shape := ⟨3, ![8, 4096, 16]⟩
abbrev S8x16x4096 : Shape := ⟨3, ![8, 16, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8x4096x16 : S_.BroadcastsInDim S8x4096x16 (![] : Fin 0 → Fin S8x4096x16.rank)
  reducesTo_S8x4096x16_S_d0_1_2 : S8x4096x16.ReducesTo [0, 1, 2] S_
  bcast_S_S8x16x4096 : S_.BroadcastsInDim S8x16x4096 (![] : Fin 0 → Fin S8x16x4096.rank)
  reducesTo_S8x16x4096_S_d0_1_2 : S8x16x4096.ReducesTo [0, 1, 2] S_

variable [Facts]

def fn_part1 {F : FTy → Type} [FloatOps F] (main_v13 : IVec S_ 1) (main_v16 : IVec S8x16x4096 1) : IVec S_ 1 :=
  let main_c_5 : IVec S_ 1 := constantI S_ 1 1#1
  let main_v17 : IVec S_ 1 := (fun x v => Host.reduce IntOp.andi x v reducesTo_S8x16x4096_S_d0_1_2 h_S_) main_v16 main_c_5
  let main_v18 : IVec S_ 1 := andi main_v13 main_v17
  main_v18

def fn {F : FTy → Type} [FloatOps F] (main_arg0 : FVec F S8192x4096 .f32) (main_arg1 : FVec F S8192x4096 .f32) (main_arg2 : FVec F S8x4096x16 .f32) (main_arg3 : FVec F S8x16x4096 .f32) (main_arg4 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8x4096x16 .f32 := Host.absf main_arg2
  let main_cst_2 : FVec F S_ .f32 := constant S_ .f32 0x7F800000#32
  let main_v10 : FVec F S8x4096x16 .f32 := broadcastInDim S8x4096x16 ![] bcast_S_S8x4096x16 main_cst_2
  let main_v11 : IVec S8x4096x16 1 := cmpf .olt main_v9 main_v10
  let main_c_3 : IVec S_ 1 := constantI S_ 1 1#1
  let main_v12 : IVec S_ 1 := (fun x v => Host.reduce IntOp.andi x v reducesTo_S8x4096x16_S_d0_1_2 h_S_) main_v11 main_c_3
  let main_v13 : IVec S_ 1 := andi main_v8 main_v12
  let main_v14 : FVec F S8x16x4096 .f32 := Host.absf main_arg3
  let main_cst_4 : FVec F S_ .f32 := constant S_ .f32 0x7F800000#32
  let main_v15 : FVec F S8x16x4096 .f32 := broadcastInDim S8x16x4096 ![] bcast_S_S8x16x4096 main_cst_4
  let main_v16 : IVec S8x16x4096 1 := cmpf .olt main_v14 main_v15
  fn_part1 (F := F) main_v13 main_v16
-- ==== Kernel.lean ====
abbrev S8192x4096 : Shape := ⟨2, ![8192, 4096]⟩
abbrev S8x4096x16 : Shape := ⟨3, ![8, 4096, 16]⟩
abbrev S8x16x4096 : Shape := ⟨3, ![8, 16, 4096]⟩
abbrev S8192 : Shape := ⟨1, ![8192]⟩
abbrev S8192x1 : Shape := ⟨2, ![8192, 1]⟩
abbrev S256x4096 : Shape := ⟨2, ![256, 4096]⟩
abbrev S256x1 : Shape := ⟨2, ![256, 1]⟩
abbrev S1x16x4096 : Shape := ⟨3, ![1, 16, 4096]⟩
abbrev S16x4096 : Shape := ⟨2, ![16, 4096]⟩
abbrev S256x16 : Shape := ⟨2, ![256, 16]⟩

abbrev nBuf : Space → Nat
  | .hbm => 10
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8x4096x16, .f32⟩
  | .hbm, ⟨3, _⟩ => ⟨S8x16x4096, .f32⟩
  | .hbm, ⟨4, _⟩ => ⟨S8192, .i32⟩
  | .hbm, ⟨5, _⟩ => ⟨S8192x1, .i32⟩
  | .hbm, ⟨6, _⟩ => ⟨S8x16x4096, .f32⟩
  | .hbm, ⟨7, _⟩ => ⟨S8x16x4096, .bf16⟩
  | .hbm, ⟨8, _⟩ => ⟨S8x16x4096, .bf16⟩
  | .hbm, ⟨9, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1, .i32⟩
  | .local _ .vmem, ⟨5, _⟩ => ⟨S256x1, .i32⟩
  | .local _ .vmem, ⟨6, _⟩ => ⟨S8x16x4096, .bf16⟩
  | .local _ .vmem, ⟨7, _⟩ => ⟨S8x16x4096, .bf16⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x16x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x16x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192_S8192x1 : S8192.ShapeCasts S8192x1
  transposes_S8x4096x16_S8x16x4096_0_2_1 : S8x4096x16.Transposes [0, 2, 1] S8x16x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x4096_S256x4096 : S256x4096.ShapeCasts S256x4096
  natLt_1_32 : 1 < 32
  inb_S8x16x4096_S1x16x4096_0_0_0 : ∀ a, (![0, 0, 0] : Fin 3 → Nat) a + S1x16x4096.size a ≤ S8x16x4096.size a
  h_S1x16x4096 : 0 < S1x16x4096.numel
  shapeCasts_S1x16x4096_S16x4096 : S1x16x4096.ShapeCasts S16x4096
  broadcasts_S256x1_S256x4096 : S256x1.Broadcasts S256x4096
  inb_S8x16x4096_S1x16x4096_1_0_0 : ∀ a, (![1, 0, 0] : Fin 3 → Nat) a + S1x16x4096.size a ≤ S8x16x4096.size a
  inb_S8x16x4096_S1x16x4096_2_0_0 : ∀ a, (![2, 0, 0] : Fin 3 → Nat) a + S1x16x4096.size a ≤ S8x16x4096.size a
  inb_S8x16x4096_S1x16x4096_3_0_0 : ∀ a, (![3, 0, 0] : Fin 3 → Nat) a + S1x16x4096.size a ≤ S8x16x4096.size a
  inb_S8x16x4096_S1x16x4096_4_0_0 : ∀ a, (![4, 0, 0] : Fin 3 → Nat) a + S1x16x4096.size a ≤ S8x16x4096.size a
  inb_S8x16x4096_S1x16x4096_5_0_0 : ∀ a, (![5, 0, 0] : Fin 3 → Nat) a + S1x16x4096.size a ≤ S8x16x4096.size a
  inb_S8x16x4096_S1x16x4096_6_0_0 : ∀ a, (![6, 0, 0] : Fin 3 → Nat) a + S1x16x4096.size a ≤ S8x16x4096.size a
  inb_S8x16x4096_S1x16x4096_7_0_0 : ∀ a, (![7, 0, 0] : Fin 3 → Nat) a + S1x16x4096.size a ≤ S8x16x4096.size a
  dot_S256x4096_S16x4096_S256x16_1_1_0_0_n_n_wf : DotDims.WF S256x4096 S16x4096 S256x16 [1] [1] [0] [0] [] []
  dot_S256x16_S16x4096_S256x4096_1_0_0_1_n_n_wf : DotDims.WF S256x16 S16x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x16x4096.size a ≤ S8x16x4096.size a
  hwx0_3 : ∀ i : grid0.Coords, EltTy.bits .bf16 = 32 ∨ (Rect.block (s := S8x16x4096) S8x16x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x16x4096.size a ≤ S8x16x4096.size a
  hwx0_4 : ∀ i : grid0.Coords, EltTy.bits .bf16 = 32 ∨ (Rect.block (s := S8x16x4096) S8x16x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x4096.size a
  hwx0_5 : ∀ i : grid0.Coords, EltTy.bits .f32 = 32 ∨ (Rect.block (s := S8192x4096) S256x4096.size (cc0_transform_5 i) (hinb0_5 i)).WholeWords (EltTy.packing .f32)

variable [Facts₀]

def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x16x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8x4096x16 : Shape := ⟨3, ![8, 4096, 16]⟩
abbrev S8x16x4096 : Shape := ⟨3, ![8, 16, 4096]⟩
abbrev S8192 : Shape := ⟨1, ![8192]⟩
abbrev S_ : Shape := ⟨0, ![]⟩
abbrev S8192x1 : Shape := ⟨2, ![8192, 1]⟩
abbrev S1x4096x16 : Shape := ⟨3, ![1, 4096, 16]⟩
abbrev S4096x16 : Shape := ⟨2, ![4096, 16]⟩
abbrev S8192x16 : Shape := ⟨2, ![8192, 16]⟩
abbrev S1x16x4096 : Shape := ⟨3, ![1, 16, 4096]⟩
abbrev S16x4096 : Shape := ⟨2, ![16, 4096]⟩

abbrev nBuf : Space → Nat
  | .hbm => 117
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8x4096x16, .f32⟩
  | .hbm, ⟨3, _⟩ => ⟨S8x16x4096, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192, .f32⟩
  | .hbm, ⟨9, _⟩ => ⟨S8192x1, .f32⟩
  | .hbm, ⟨10, _⟩ => ⟨S1x4096x16, .f32⟩
  | .hbm, ⟨11, _⟩ => ⟨S4096x16, .f32⟩
  | .hbm, ⟨12, _⟩ => ⟨S8192x16, .f32⟩
  | .hbm, ⟨13, _⟩ => ⟨S1x16x4096, .f32⟩
  | .hbm, ⟨14, _⟩ => ⟨S16x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .f32⟩
  | .hbm, ⟨23, _⟩ => ⟨S8192x1, .f32⟩
  | .hbm, ⟨24, _⟩ => ⟨S1x4096x16, .f32⟩
  | .hbm, ⟨25, _⟩ => ⟨S4096x16, .f32⟩
  | .hbm, ⟨26, _⟩ => ⟨S8192x16, .f32⟩
  | .hbm, ⟨27, _⟩ => ⟨S1x16x4096, .f32⟩
  | .hbm, ⟨28, _⟩ => ⟨S16x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S8192, .f32⟩
  | .hbm, ⟨37, _⟩ => ⟨S8192x1, .f32⟩
  | .hbm, ⟨38, _⟩ => ⟨S1x4096x16, .f32⟩
  | .hbm, ⟨39, _⟩ => ⟨S4096x16, .f32⟩
  | .hbm, ⟨40, _⟩ => ⟨S8192x16, .f32⟩
  | .hbm, ⟨41, _⟩ => ⟨S1x16x4096, .f32⟩
  | .hbm, ⟨42, _⟩ => ⟨S16x4096, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S8192, .f32⟩
  | .hbm, ⟨51, _⟩ => ⟨S8192x1, .f32⟩
  | .hbm, ⟨52, _⟩ => ⟨S1x4096x16, .f32⟩
  | .hbm, ⟨53, _⟩ => ⟨S4096x16, .f32⟩
  | .hbm, ⟨54, _⟩ => ⟨S8192x16, .f32⟩
  | .hbm, ⟨55, _⟩ => ⟨S1x16x4096, .f32⟩
  | .hbm, ⟨56, _⟩ => ⟨S16x4096, .f32⟩
  | .hbm, ⟨57, _⟩ => ⟨S8192x4096, .f32⟩
  | .hbm, ⟨58, _⟩ => ⟨S8192x4096, .f32⟩
  | .hbm, ⟨59, _⟩ => ⟨S8192x4096, .f32⟩
  | .hbm, ⟨60, _⟩ => ⟨S8192x4096, .f32⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S8192, .f32⟩
  | .hbm, ⟨65, _⟩ => ⟨S8192x1, .f32⟩
  | .hbm, ⟨66, _⟩ => ⟨S1x4096x16, .f32⟩
  | .hbm, ⟨67, _⟩ => ⟨S4096x16, .f32⟩
  | .hbm, ⟨68, _⟩ => ⟨S8192x16, .f32⟩
  | .hbm, ⟨69, _⟩ => ⟨S1x16x4096, .f32⟩
  | .hbm, ⟨70, _⟩ => ⟨S16x4096, .f32⟩
  | .hbm, ⟨71, _⟩ => ⟨S8192x4096, .f32⟩
  | .hbm, ⟨72, _⟩ => ⟨S8192x4096, .f32⟩
  | .hbm, ⟨73, _⟩ => ⟨S8192x4096, .f32⟩
  | .hbm, ⟨74, _⟩ => ⟨S8192x4096, .f32⟩
  | .hbm, ⟨75, _⟩ => ⟨S_, .i32⟩
  | .hbm, ⟨76, _⟩ => ⟨S8192, .i32⟩
  | .hbm, ⟨77, _⟩ => ⟨S8192, .i1⟩
  | .hbm, ⟨78, _⟩ => ⟨S8192, .f32⟩
  | .hbm, ⟨79, _⟩ => ⟨S8192x1, .f32⟩
  | .hbm, ⟨80, _⟩ => ⟨S1x4096x16, .f32⟩
  | .hbm, ⟨81, _⟩ => ⟨S4096x16, .f32⟩
  | .hbm, ⟨82, _⟩ => ⟨S8192x16, .f32⟩
  | .hbm, ⟨83, _⟩ => ⟨S1x16x4096, .f32⟩
  | .hbm, ⟨84, _⟩ => ⟨S16x4096, .f32⟩
  | .hbm, ⟨85, _⟩ => ⟨S8192x4096, .f32⟩
  | .hbm, ⟨86, _⟩ => ⟨S8192x4096, .f32⟩
  | .hbm, ⟨87, _⟩ => ⟨S8192x4096, .f32⟩
  | .hbm, ⟨88, _⟩ => ⟨S8192x4096, .f32⟩
  | .hbm, ⟨89, _⟩ => ⟨S_, .i32⟩
  | .hbm, ⟨90, _⟩ => ⟨S8192, .i32⟩
  | .hbm, ⟨91, _⟩ => ⟨S8192, .i1⟩
  | .hbm, ⟨92, _⟩ => ⟨S8192, .f32⟩
  | .hbm, ⟨93, _⟩ => ⟨S8192x1, .f32⟩
  | .hbm, ⟨94, _⟩ => ⟨S1x4096x16, .f32⟩
  | .hbm, ⟨95, _⟩ => ⟨S4096x16, .f32⟩
  | .hbm, ⟨96, _⟩ => ⟨S8192x16, .f32⟩
  | .hbm, ⟨97, _⟩ => ⟨S1x16x4096, .f32⟩
  | .hbm, ⟨98, _⟩ => ⟨S16x4096, .f32⟩
  | .hbm, ⟨99, _⟩ => ⟨S8192x4096, .f32⟩
  | .hbm, ⟨100, _⟩ => ⟨S8192x4096, .f32⟩
  | .hbm, ⟨101, _⟩ => ⟨S8192x4096, .f32⟩
  | .hbm, ⟨102, _⟩ => ⟨S8192x4096, .f32⟩
  | .hbm, ⟨103, _⟩ => ⟨S_, .i32⟩
  | .hbm, ⟨104, _⟩ => ⟨S8192, .i32⟩
  | .hbm, ⟨105, _⟩ => ⟨S8192, .i1⟩
  | .hbm, ⟨106, _⟩ => ⟨S8192, .f32⟩
  | .hbm, ⟨107, _⟩ => ⟨S8192x1, .f32⟩
  | .hbm, ⟨108, _⟩ => ⟨S1x4096x16, .f32⟩
  | .hbm, ⟨109, _⟩ => ⟨S4096x16, .f32⟩
  | .hbm, ⟨110, _⟩ => ⟨S8192x16, .f32⟩
  | .hbm, ⟨111, _⟩ => ⟨S1x16x4096, .f32⟩
  | .hbm, ⟨112, _⟩ => ⟨S16x4096, .f32⟩
  | .hbm, ⟨113, _⟩ => ⟨S8192x4096, .f32⟩
  | .hbm, ⟨114, _⟩ => ⟨S8192x4096, .f32⟩
  | .hbm, ⟨115, _⟩ => ⟨S8192x4096, .f32⟩
  | .hbm, ⟨116, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_c_3 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_c_4 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_c_5 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_c_6 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S8x4096x16_S1x4096x16_0_0_0 : S8x4096x16.Slices ![0, 0, 0] S1x4096x16
  shapeCasts_S1x4096x16_S4096x16 : S1x4096x16.ShapeCasts S4096x16
  slices_S8x16x4096_S1x16x4096_0_0_0 : S8x16x4096.Slices ![0, 0, 0] S1x16x4096
  shapeCasts_S1x16x4096_S16x4096 : S1x16x4096.ShapeCasts S16x4096
  bcast_S8192x1_S8192x4096_0_1 : S8192x1.BroadcastsInDim S8192x4096 (![0, 1] : Fin 2 → Fin S8192x4096.rank)
  slices_S8x4096x16_S1x4096x16_1_0_0 : S8x4096x16.Slices ![1, 0, 0] S1x4096x16
  slices_S8x16x4096_S1x16x4096_1_0_0 : S8x16x4096.Slices ![1, 0, 0] S1x16x4096
  slices_S8x4096x16_S1x4096x16_2_0_0 : S8x4096x16.Slices ![2, 0, 0] S1x4096x16
  slices_S8x16x4096_S1x16x4096_2_0_0 : S8x16x4096.Slices ![2, 0, 0] S1x16x4096
  slices_S8x4096x16_S1x4096x16_3_0_0 : S8x4096x16.Slices ![3, 0, 0] S1x4096x16
  slices_S8x16x4096_S1x16x4096_3_0_0 : S8x16x4096.Slices ![3, 0, 0] S1x16x4096
  slices_S8x4096x16_S1x4096x16_4_0_0 : S8x4096x16.Slices ![4, 0, 0] S1x4096x16
  slices_S8x16x4096_S1x16x4096_4_0_0 : S8x16x4096.Slices ![4, 0, 0] S1x16x4096
  slices_S8x4096x16_S1x4096x16_5_0_0 : S8x4096x16.Slices ![5, 0, 0] S1x4096x16
  slices_S8x16x4096_S1x16x4096_5_0_0 : S8x16x4096.Slices ![5, 0, 0] S1x16x4096
  slices_S8x4096x16_S1x4096x16_6_0_0 : S8x4096x16.Slices ![6, 0, 0] S1x4096x16
  slices_S8x16x4096_S1x16x4096_6_0_0 : S8x16x4096.Slices ![6, 0, 0] S1x16x4096
  slices_S8x4096x16_S1x4096x16_7_0_0 : S8x4096x16.Slices ![7, 0, 0] S1x4096x16
  slices_S8x16x4096_S1x16x4096_7_0_0 : S8x16x4096.Slices ![7, 0, 0] S1x16x4096
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.LoraSpec.lean ====
/-
  The mathematics of the masked low-rank update, stated once over the whole argument arrays.

  For a token `t` (a row of `x` and of `result`), an output column `o` and an adapter `i < 8`,
  the adapter's update is the two-stage product  ((x_t · A_i) · B_i)_o
      = ∑ r < 16, (∑ h < 4096, x[t,h] · A[i,h,r]) · B[i,r,o],
  and it is kept only where the token's adapter word equals `i`: it is multiplied by the indicator
  `sel`, which is 1 or 0.  Both programs add the eight masked updates to `result[t,o]`; they differ
  only in how the nine summands are grouped:
    * the reference folds from the left starting at `result`:  (((result + u₀) + u₁) + …) + u₇;
    * the kernel first accumulates from zero, then adds `result`:  result + ((((0 + u₀) + u₁) + …) + u₇).
  Addition of extended reals is associative and `0` is its unit, at the infinities too, so the two
  groupings are one value and no finiteness of the inputs is used (`kernelSum_eq_refSum`).
-/
import Idealize.ShloMosaic.PureOps.Ideal
import Idealize.ShloMosaic.PureOps.Ideal.Laws
import Idealize.ShloMosaic.Lib.ValueIdx

noncomputable section

open scoped BigOperators

namespace Cert.Lora

open Idealize.ShloMosaic Idealize.ShloMosaic.ValueIdx

/-- Tokens × features: the shape of `x`, of `result` and of the output. -/
abbrev Stok : Shape := ⟨2, ![8192, 4096]⟩
/-- Adapters × features × rank: the shape of the shrink matrices `A`. -/
abbrev Sshrink : Shape := ⟨3, ![8, 4096, 16]⟩
/-- Adapters × rank × features: the shape of the expand matrices `B`. -/
abbrev Sexpand : Shape := ⟨3, ![8, 16, 4096]⟩
/-- One adapter word per token. -/
abbrev Sidx : Shape := ⟨1, ![8192]⟩

/-- The indicator that a token's adapter word `w` is the adapter numbered `i`: the one-bit comparison read
    as an unsigned integer, so `1` where they are equal and `0` elsewhere. -/
def sel (w i : BitVec 32) : EReal := FloatOps.uitofp (F := Ideal) .f32 (IntOp.cmpi .eq w i)

/-- Adapter `i`'s low-rank update of token `t` at output column `o`: shrink `x_t` through `A_i` to rank 16,
    expand through `B_i`. -/
def lowRank (x : Stok.Idx → EReal) (a : Sshrink.Idx → EReal) (b : Sexpand.Idx → EReal)
    (i : Fin 8) (t : Fin 8192) (o : Fin 4096) : EReal :=
  ∑ r : Fin 16, (∑ h : Fin 4096, x (ix2 t h) * a (ix3 i h r)) * b (ix3 i r o)

/-- The masked update: adapter `i`'s update where the token's word is `iw`, zero elsewhere. -/
def upd (x : Stok.Idx → EReal) (a : Sshrink.Idx → EReal) (b : Sexpand.Idx → EReal) (idx : Sidx.Idx → BitVec 32)
    (i : Fin 8) (iw : BitVec 32) (t : Fin 8192) (o : Fin 4096) : EReal :=
  lowRank x a b i t o * sel (idx (ix1 t)) iw

/-- The reference's grouping: fold the eight masked updates onto `result` from the left. -/
def refSum (res x : Stok.Idx → EReal) (a : Sshrink.Idx → EReal) (b : Sexpand.Idx → EReal) (idx : Sidx.Idx → BitVec 32) :
    Stok.Idx → EReal := fun j =>
  res j + upd x a b idx 0 0#32 (j 0) (j 1) + upd x a b idx 1 1#32 (j 0) (j 1) + upd x a b idx 2 2#32 (j 0) (j 1)
    + upd x a b idx 3 3#32 (j 0) (j 1) + upd x a b idx 4 4#32 (j 0) (j 1) + upd x a b idx 5 5#32 (j 0) (j 1)
    + upd x a b idx 6 6#32 (j 0) (j 1) + upd x a b idx 7 7#32 (j 0) (j 1)

/-- The kernel's grouping: accumulate the eight masked updates from zero, then add `result` in front. -/
def kernelSum (res x : Stok.Idx → EReal) (a : Sshrink.Idx → EReal) (b : Sexpand.Idx → EReal) (idx : Sidx.Idx → BitVec 32) :
    Stok.Idx → EReal := fun j =>
  res j + (0 + upd x a b idx 0 0#32 (j 0) (j 1) + upd x a b idx 1 1#32 (j 0) (j 1) + upd x a b idx 2 2#32 (j 0) (j 1)
    + upd x a b idx 3 3#32 (j 0) (j 1) + upd x a b idx 4 4#32 (j 0) (j 1) + upd x a b idx 5 5#32 (j 0) (j 1)
    + upd x a b idx 6 6#32 (j 0) (j 1) + upd x a b idx 7 7#32 (j 0) (j 1))

/-- The two groupings are one value: `0 + u = u` and `+` is associative on the extended reals. -/
theorem kernelSum_eq_refSum (res x : Stok.Idx → EReal) (a : Sshrink.Idx → EReal) (b : Sexpand.Idx → EReal)
    (idx : Sidx.Idx → BitVec 32) : kernelSum res x a b idx = refSum res x a b idx := by
  funext j
  simp only [kernelSum, refSum, zero_add, add_assoc]

end Cert.Lora

end
-- ==== Proof.LibColumnBroadcast.lean ====
/-
  A column vector broadcast along a new second extent, read at an index.

  `vector.broadcast` of an [n, 1] vector to [n, k] copies each row's one entry along the row: at (p, q) the result is
  the column's entry at (p, 0).  (For n = 1 the first axis is a unit axis too and is read at 0; the lemma asks n ≠ 1.)
-/
import Idealize.ShloMosaic.Lib.ValueIdx
import Idealize.ShloMosaic.Lib.Pipeline.Value

namespace Idealize.ShloMosaic.ColumnBroadcast

open Idealize.ShloMosaic Idealize.ShloMosaic.ValueIdx

/-- A column [n, 1] broadcast to [n, k] reads the column's entry of the same row. -/
theorem broadcastTo_col_apply {α : Type} {n k : Nat} (x : (⟨2, ![n, 1]⟩ : Shape).Idx → α)
    (h : (⟨2, ![n, 1]⟩ : Shape).Broadcasts ⟨2, ![n, k]⟩) (hn : n ≠ 1) (p : Fin n) (q : Fin k) :
    broadcastTo (⟨2, ![n, k]⟩ : Shape) x h (ix2 p q) = x (ix2 p 0) := by
  refine broadcastTo_apply x h (ix2 p q) (ix2 p 0) fun a => ?_
  match a with
  | ⟨0, _⟩ => show p.val = if n = 1 then 0 else p.val; rw [if_neg hn]
  | ⟨1, _⟩ => show 0 = if (1 : Nat) = 1 then 0 else q.val; rw [if_pos rfl]

end Idealize.ShloMosaic.ColumnBroadcast
-- ==== Proof.LoraOps.lean ====
/-
  The indicator of "this token uses adapter `i`", as each program spells it, is the specification's `sel`.

  The reference converts the one-bit comparison straight to a float; the kernel first widens the bit to a
  32-bit word and converts that word as a signed integer. A widened bit is 0 or 1, non-negative, so the two
  conversions agree: both are `sel`.
-/
import proofs.«163808_j14139032338753_1_alg».proof.Proof.LoraSpec
import Idealize.ShloMosaic.Lib.KernelVsHost
import Idealize.ShloMosaic.Lib.Pipeline.Value
import proofs.«163808_j14139032338753_1_alg».proof.Proof.LibColumnBroadcast

noncomputable section

namespace Cert.Lora

open Idealize.ShloMosaic Idealize.ShloMosaic.ValueIdx

/-- The reference's mask entry: the comparison converted as an unsigned bit. -/
theorem sel_of_uitofp {s : Shape} (w y : IVec s 32) (i : s.Idx) :
    (uitofp .f32 (cmpi .eq w y) : FVec Ideal s .f32) i = sel (w i) (y i) := rfl

/-- The kernel's mask entry: the comparison widened to a word, converted as a signed integer. -/
theorem sel_of_sitofp_extui {s : Shape} (w : IVec s 32) (iw : BitVec 32) (h : 1 < 32) (i : s.Idx) :
    (sitofp .f32 (extui 32 (cmpi .eq w (broadcast s iw)) h) : FVec Ideal s .f32) i = sel (w i) iw := by
  rw [sitofp_extui_eq_uitofp]
  rfl

end Cert.Lora

end
-- ==== Proof.LoraRef.lean ====
/-
  The reference's text for one adapter, read at an output index, is the specification's masked update.

  For adapter `k` the reference takes row `k` of the shrink and expand stacks (a unit slice then a reshape that
  drops the leading unit axis), multiplies `x` by the one and the result by the other, and multiplies by the
  indicator column broadcast along the features.  Read at (t, o):
    * the slice-and-reshape of `A` at (h, r) is `A[k, h, r]`, of `B` at (r, o) is `B[k, r, o]`;
    * each product is the sum over its one contracted axis of the operands' products;
    * the broadcast indicator is `sel (idx t) k`.
  Hence the term is `upd x A B idx k` at (t, o), and the eight terms folded onto `result` from the left are `refSum`.
-/
import proofs.«163808_j14139032338753_1_alg».proof.Proof.Gen.ReferenceIdeal.Read
import proofs.«163808_j14139032338753_1_alg».proof.Proof.LoraOps

noncomputable section

open scoped BigOperators

namespace Cert.Lora.Ref

open Cert.ReferenceIdeal Cert.ReferenceIdeal.Gen Cert.ReferenceIdeal.Read
open Idealize.ShloMosaic Idealize.ShloMosaic.ValueIdx Cert.Lora

/-- The shrink product `x · Y` (tokens × features times features × rank), at (t, r). -/
theorem shrink_apply (x : FVec Ideal S8192x4096 .f32) (y : FVec Ideal S4096x16 .f32) (t : Fin 8192) (r : Fin 16) :
    (Host.dotGeneral dot_S8192x4096_S4096x16_S8192x16_1_0_0_1_n_n none x y : FVec Ideal S8192x16 .f32) (ix2 t r)
      = ∑ h : Fin 4096, x (ix2 t h) * y (ix2 h r) := by
  simp only [Host.dotGeneral]
  rw [Ideal.dotGeneral_apply, ← Equiv.sum_comp (contrEquiv1 dot_S8192x4096_S4096x16_S8192x16_1_0_0_1_n_n 4096 rfl rfl).symm]
  refine Finset.sum_congr rfl fun k _ => ?_
  have hk := contrEquiv1_symm_val dot_S8192x4096_S4096x16_S8192x16_1_0_0_1_n_n 4096 rfl rfl k
  have el : dot_S8192x4096_S4096x16_S8192x16_1_0_0_1_n_n.lhsIdx (ix2 t r) ((contrEquiv1 dot_S8192x4096_S4096x16_S8192x16_1_0_0_1_n_n 4096 rfl rfl).symm k) = ix2 t k := funext fun a => Fin.ext (by
    match a with
    | ⟨0, _⟩ => exact lhs_main_v6_0 _ _
    | ⟨1, _⟩ => exact (lhs_main_v6_1 _ _).trans hk)
  have er : dot_S8192x4096_S4096x16_S8192x16_1_0_0_1_n_n.rhsIdx (ix2 t r) ((contrEquiv1 dot_S8192x4096_S4096x16_S8192x16_1_0_0_1_n_n 4096 rfl rfl).symm k) = ix2 k r := funext fun a => Fin.ext (by
    match a with
    | ⟨0, _⟩ => exact (rhs_main_v6_0 _ _).trans hk
    | ⟨1, _⟩ => exact rhs_main_v6_1 _ _)
  rw [el, er]

/-- The expand product `V · Z` (tokens × rank times rank × features), at (t, o). -/
theorem expand_apply (v : FVec Ideal S8192x16 .f32) (z : FVec Ideal S16x4096 .f32) (t : Fin 8192) (o : Fin 4096) :
    (Host.dotGeneral dot_S8192x16_S16x4096_S8192x4096_1_0_0_1_n_n none v z : FVec Ideal S8192x4096 .f32) (ix2 t o)
      = ∑ r : Fin 16, v (ix2 t r) * z (ix2 r o) := by
  simp only [Host.dotGeneral]
  rw [Ideal.dotGeneral_apply, ← Equiv.sum_comp (contrEquiv1 dot_S8192x16_S16x4096_S8192x4096_1_0_0_1_n_n 16 rfl rfl).symm]
  refine Finset.sum_congr rfl fun k _ => ?_
  have hk := contrEquiv1_symm_val dot_S8192x16_S16x4096_S8192x4096_1_0_0_1_n_n 16 rfl rfl k
  have el : dot_S8192x16_S16x4096_S8192x4096_1_0_0_1_n_n.lhsIdx (ix2 t o) ((contrEquiv1 dot_S8192x16_S16x4096_S8192x4096_1_0_0_1_n_n 16 rfl rfl).symm k) = ix2 t k := funext fun a => Fin.ext (by
    match a with
    | ⟨0, _⟩ => exact lhs_main_v9_0 _ _
    | ⟨1, _⟩ => exact (lhs_main_v9_1 _ _).trans hk)
  have er : dot_S8192x16_S16x4096_S8192x4096_1_0_0_1_n_n.rhsIdx (ix2 t o) ((contrEquiv1 dot_S8192x16_S16x4096_S8192x4096_1_0_0_1_n_n 16 rfl rfl).symm k) = ix2 k o := funext fun a => Fin.ext (by
    match a with
    | ⟨0, _⟩ => exact (rhs_main_v9_0 _ _).trans hk
    | ⟨1, _⟩ => exact rhs_main_v9_1 _ _)
  rw [el, er]

/-- Row `k` of the shrink stack, the leading unit axis dropped: at (h, r) it is `A[k, h, r]`. -/
theorem shrinkRow_apply (a : FVec Ideal S8x4096x16 .f32) (k : Nat) (hk : k < 8) (hs : S8x4096x16.Slices ![k, 0, 0] S1x4096x16)
    (h : Fin 4096) (r : Fin 16) :
    shapeCast S4096x16 (extractStridedSlice S1x4096x16 ![k, 0, 0] a hs) shapeCasts_S1x4096x16_S4096x16 (ix2 h r)
      = a (ix3 ⟨k, hk⟩ h r) := by
  refine (shapeCast_apply _ shapeCasts_S1x4096x16_S4096x16 (ix2 h r) (ix3 (0 : Fin 1) h r) ?_).trans ?_
  · rewrite [Shape.rowMajor_val_three, Shape.rowMajor_val_two]
    show (0 * 4096 + h.val) * 16 + r.val = h.val * 16 + r.val
    omega
  · exact extractStridedSlice_apply ![k, 0, 0] a hs (ix3 (0 : Fin 1) h r) (ix3 ⟨k, hk⟩ h r) (fun b => match b with
      | ⟨0, _⟩ => by show k = k + 0; omega
      | ⟨1, _⟩ => by show h.val = 0 + h.val; omega
      | ⟨2, _⟩ => by show r.val = 0 + r.val; omega)

/-- Row `k` of the expand stack, the leading unit axis dropped: at (r, o) it is `B[k, r, o]`. -/
theorem expandRow_apply (b : FVec Ideal S8x16x4096 .f32) (k : Nat) (hk : k < 8) (hs : S8x16x4096.Slices ![k, 0, 0] S1x16x4096)
    (r : Fin 16) (o : Fin 4096) :
    shapeCast S16x4096 (extractStridedSlice S1x16x4096 ![k, 0, 0] b hs) shapeCasts_S1x16x4096_S16x4096 (ix2 r o)
      = b (ix3 ⟨k, hk⟩ r o) := by
  refine (shapeCast_apply _ shapeCasts_S1x16x4096_S16x4096 (ix2 r o) (ix3 (0 : Fin 1) r o) ?_).trans ?_
  · rewrite [Shape.rowMajor_val_three, Shape.rowMajor_val_two]
    show (0 * 16 + r.val) * 4096 + o.val = r.val * 4096 + o.val
    omega
  · exact extractStridedSlice_apply ![k, 0, 0] b hs (ix3 (0 : Fin 1) r o) (ix3 ⟨k, hk⟩ r o) (fun c => match c with
      | ⟨0, _⟩ => by show k = k + 0; omega
      | ⟨1, _⟩ => by show r.val = 0 + r.val; omega
      | ⟨2, _⟩ => by show o.val = 0 + o.val; omega)

/-- The indicator column of adapter word `iw`, broadcast along the features: at (t, o) it is `sel (idx t) iw`. -/
theorem maskRef_apply (idx : IVec S8192 32) (iw : BitVec 32) (t : Fin 8192) (o : Fin 4096) :
    (broadcastInDim S8192x4096 ![0, 1] bcast_S8192x1_S8192x4096_0_1
      (broadcastInDim S8192x1 ![0] bcast_S8192_S8192x1_0
        (uitofp .f32 (cmpi .eq idx (broadcastInDim S8192 ![] bcast_S_S8192 (constantI S_ 32 iw)))) : FVec Ideal S8192x1 .f32)
      : FVec Ideal S8192x4096 .f32) (ix2 t o) = sel (idx (ix1 t)) iw := by
  refine (broadcastInDim_apply _ bcast_S8192x1_S8192x4096_0_1 _ (ix2 t o) (ix2 t (0 : Fin 1)) (fun a => match a with
    | ⟨0, _⟩ => by show t.val = if (8192 : Nat) = 1 then 0 else t.val; rw [if_neg (by decide)]
    | ⟨1, _⟩ => by show 0 = if (1 : Nat) = 1 then 0 else o.val; rw [if_pos rfl])).trans ?_
  refine (broadcastInDim_apply _ bcast_S8192_S8192x1_0 _ (ix2 t (0 : Fin 1)) (ix1 t) (fun a => match a with
    | ⟨0, _⟩ => by show t.val = if (8192 : Nat) = 1 then 0 else t.val; rw [if_neg (by decide)])).trans ?_
  exact sel_of_uitofp idx _ (ix1 t)

/-- One adapter's term of the reference at (t, o): the masked update. -/
theorem term_apply (x : FVec Ideal S8192x4096 .f32) (a : FVec Ideal S8x4096x16 .f32) (b : FVec Ideal S8x16x4096 .f32)
    (idx : IVec S8192 32) (k : Nat) (hk : k < 8) (iw : BitVec 32)
    (hsa : S8x4096x16.Slices ![k, 0, 0] S1x4096x16) (hsb : S8x16x4096.Slices ![k, 0, 0] S1x16x4096) (j : S8192x4096.Idx) :
    (mulf
      (Host.dotGeneral dot_S8192x16_S16x4096_S8192x4096_1_0_0_1_n_n none
        (Host.dotGeneral dot_S8192x4096_S4096x16_S8192x16_1_0_0_1_n_n none x
          (shapeCast S4096x16 (extractStridedSlice S1x4096x16 ![k, 0, 0] a hsa) shapeCasts_S1x4096x16_S4096x16))
        (shapeCast S16x4096 (extractStridedSlice S1x16x4096 ![k, 0, 0] b hsb) shapeCasts_S1x16x4096_S16x4096))
      (broadcastInDim S8192x4096 ![0, 1] bcast_S8192x1_S8192x4096_0_1
        (broadcastInDim S8192x1 ![0] bcast_S8192_S8192x1_0
          (uitofp .f32 (cmpi .eq idx (broadcastInDim S8192 ![] bcast_S_S8192 (constantI S_ 32 iw))))))
      : FVec Ideal S8192x4096 .f32) j
      = upd x a b idx ⟨k, hk⟩ iw (j 0) (j 1) := by
  obtain ⟨t, o, rfl⟩ : ∃ (t : Fin 8192) (o : Fin 4096), j = ix2 t o := ⟨j 0, j 1, eq_ix2 j⟩
  rw [mulf_apply, expand_apply, maskRef_apply]
  unfold upd lowRank
  refine congrArg (· * sel (idx (ix1 t)) iw) (Finset.sum_congr rfl fun r _ => ?_)
  rw [shrink_apply, expandRow_apply b k hk hsb r o]
  refine congrArg (· * b (ix3 ⟨k, hk⟩ r o)) (Finset.sum_congr rfl fun h _ => ?_)
  rw [shrinkRow_apply a k hk hsa h r]

/-- The reference's result is the specification's left fold. -/
theorem result_eq (res x : FVec Ideal S8192x4096 .f32) (a : FVec Ideal S8x4096x16 .f32) (b : FVec Ideal S8x16x4096 .f32)
    (idx : IVec S8192 32) :
    val_main_v103 (F := Ideal) res x a b idx = refSum res x a b idx := by
  funext j
  have t0 : val_main_v11 (F := Ideal) x a b idx j = upd x a b idx 0 0#32 (j 0) (j 1) :=
    term_apply x a b idx 0 (by decide) 0#32 _ _ j
  have t1 : val_main_v24 (F := Ideal) x a b idx j = upd x a b idx 1 1#32 (j 0) (j 1) :=
    term_apply x a b idx 1 (by decide) 1#32 _ _ j
  have t2 : val_main_v37 (F := Ideal) x a b idx j = upd x a b idx 2 2#32 (j 0) (j 1) :=
    term_apply x a b idx 2 (by decide) 2#32 _ _ j
  have t3 : val_main_v50 (F := Ideal) x a b idx j = upd x a b idx 3 3#32 (j 0) (j 1) :=
    term_apply x a b idx 3 (by decide) 3#32 _ _ j
  have t4 : val_main_v63 (F := Ideal) x a b idx j = upd x a b idx 4 4#32 (j 0) (j 1) :=
    term_apply x a b idx 4 (by decide) 4#32 _ _ j
  have t5 : val_main_v76 (F := Ideal) x a b idx j = upd x a b idx 5 5#32 (j 0) (j 1) :=
    term_apply x a b idx 5 (by decide) 5#32 _ _ j
  have t6 : val_main_v89 (F := Ideal) x a b idx j = upd x a b idx 6 6#32 (j 0) (j 1) :=
    term_apply x a b idx 6 (by decide) 6#32 _ _ j
  have t7 : val_main_v102 (F := Ideal) x a b idx j = upd x a b idx 7 7#32 (j 0) (j 1) :=
    term_apply x a b idx 7 (by decide) 7#32 _ _ j
  rw [val_main_v103_apply, val_main_v90_apply, val_main_v77_apply, val_main_v64_apply, val_main_v51_apply,
    val_main_v38_apply, val_main_v25_apply, val_main_v12_apply, t0, t1, t2, t3, t4, t5, t6, t7]
  rfl

end Cert.Lora.Ref

end
-- ==== Proof.LoraKer.lean ====
/-
  The kernel's text for one adapter, read at an index of a token tile, is the masked update of that tile.

  A tile holds 256 tokens.  For adapter `k` the kernel multiplies the tile of `x` (256 × 4096) by the transposed
  shrink matrix (16 × 4096, both contracted along the features), narrows the 256 × 16 result (the identity on
  extended reals), multiplies by the expand matrix (16 × 4096) and by the indicator column broadcast along the
  features.  Read at (p, q):
    * the first product at (p, r) is ∑ h, x[p,h] · Aᵀ[r,h]; the second at (p, q) is ∑ r, v[p,r] · B[r,q]
      (each accumulates into a zero splat, so nothing is added in front);
    * the broadcast indicator is `sel (idx p) k`.
-/
import proofs.«163808_j14139032338753_1_alg».proof.Proof.Gen.KernelIdeal
import proofs.«163808_j14139032338753_1_alg».proof.Proof.LoraOps

noncomputable section

open scoped BigOperators

namespace Cert.Lora.Ker

open Cert.KernelIdeal Cert.KernelIdeal.Gen
open Idealize.ShloMosaic Idealize.ShloMosaic.ValueIdx Cert.Lora

/-! ## The two block products' operand indices, axis by axis -/

theorem lhs_shrink_0 (i : S256x16.Idx) (q : dot_S256x4096_S16x4096_S256x16_1_1_0_0_n_n.contr.Idx) :
    (dot_S256x4096_S16x4096_S256x16_1_1_0_0_n_n.lhsIdx i q 0).val = (i 0).val := by
  unfold DotDims.lhsIdx
  rw [dif_neg (show ¬(0 : Fin S256x4096.rank) ∈ dot_S256x4096_S16x4096_S256x16_1_1_0_0_n_n.lhsBatch by decide), dif_pos (show (0 : Fin S256x4096.rank) ∈ dot_S256x4096_S16x4096_S256x16_1_1_0_0_n_n.lhsNonContracting by decide)]
  rfl
theorem lhs_shrink_1 (i : S256x16.Idx) (q : dot_S256x4096_S16x4096_S256x16_1_1_0_0_n_n.contr.Idx) :
    (dot_S256x4096_S16x4096_S256x16_1_1_0_0_n_n.lhsIdx i q 1).val = (q ⟨0, by decide⟩).val :=
  dot_S256x4096_S16x4096_S256x16_1_1_0_0_n_n.lhsIdx_val_of_single rfl i q
theorem rhs_shrink_0 (i : S256x16.Idx) (q : dot_S256x4096_S16x4096_S256x16_1_1_0_0_n_n.contr.Idx) :
    (dot_S256x4096_S16x4096_S256x16_1_1_0_0_n_n.rhsIdx i q 0).val = (i 1).val := by
  unfold DotDims.rhsIdx
  rw [dif_neg (show ¬(0 : Fin S16x4096.rank) ∈ dot_S256x4096_S16x4096_S256x16_1_1_0_0_n_n.rhsBatch by decide), dif_pos (show (0 : Fin S16x4096.rank) ∈ dot_S256x4096_S16x4096_S256x16_1_1_0_0_n_n.rhsNonContracting by decide)]
  rfl
theorem rhs_shrink_1 (i : S256x16.Idx) (q : dot_S256x4096_S16x4096_S256x16_1_1_0_0_n_n.contr.Idx) :
    (dot_S256x4096_S16x4096_S256x16_1_1_0_0_n_n.rhsIdx i q 1).val = (q ⟨0, by decide⟩).val :=
  dot_S256x4096_S16x4096_S256x16_1_1_0_0_n_n.rhsIdx_val_of_single rfl i q

theorem lhs_expand_0 (i : S256x4096.Idx) (q : dot_S256x16_S16x4096_S256x4096_1_0_0_1_n_n.contr.Idx) :
    (dot_S256x16_S16x4096_S256x4096_1_0_0_1_n_n.lhsIdx i q 0).val = (i 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
theorem lhs_expand_1 (i : S256x4096.Idx) (q : dot_S256x16_S16x4096_S256x4096_1_0_0_1_n_n.contr.Idx) :
    (dot_S256x16_S16x4096_S256x4096_1_0_0_1_n_n.lhsIdx i q 1).val = (q ⟨0, by decide⟩).val :=
  dot_S256x16_S16x4096_S256x4096_1_0_0_1_n_n.lhsIdx_val_of_single rfl i q
theorem rhs_expand_0 (i : S256x4096.Idx) (q : dot_S256x16_S16x4096_S256x4096_1_0_0_1_n_n.contr.Idx) :
    (dot_S256x16_S16x4096_S256x4096_1_0_0_1_n_n.rhsIdx i q 0).val = (q ⟨0, by decide⟩).val :=
  dot_S256x16_S16x4096_S256x4096_1_0_0_1_n_n.rhsIdx_val_of_single rfl i q
theorem rhs_expand_1 (i : S256x4096.Idx) (q : dot_S256x16_S16x4096_S256x4096_1_0_0_1_n_n.contr.Idx) :
    (dot_S256x16_S16x4096_S256x4096_1_0_0_1_n_n.rhsIdx i q 1).val = (i 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl

/-! ## The products at an index -/

/-- The tile's shrink product against the transposed shrink matrix, at (p, r): both operands run along the features. -/
theorem shrink_apply (v : FVec Ideal S256x4096 .bf16) (w : FVec Ideal S16x4096 .bf16) (p : Fin 256) (r : Fin 16) :
    (matmul dot_S256x4096_S16x4096_S256x16_1_1_0_0_n_n none v w (constant (F := Ideal) S256x16 .f32 0x00000000#32) : FVec Ideal S256x16 .f32) (ix2 p r)
      = ∑ h : Fin 4096, v (ix2 p h) * w (ix2 r h) := by
  simp only [matmul]
  rw [Ideal.matmul_constant_zero_apply, ← Equiv.sum_comp (contrEquiv1 dot_S256x4096_S16x4096_S256x16_1_1_0_0_n_n 4096 rfl rfl).symm]
  refine Finset.sum_congr rfl fun k _ => ?_
  have hk := contrEquiv1_symm_val dot_S256x4096_S16x4096_S256x16_1_1_0_0_n_n 4096 rfl rfl k
  have el : dot_S256x4096_S16x4096_S256x16_1_1_0_0_n_n.lhsIdx (ix2 p r) ((contrEquiv1 dot_S256x4096_S16x4096_S256x16_1_1_0_0_n_n 4096 rfl rfl).symm k) = ix2 p k := funext fun a => Fin.ext (by
    match a with
    | ⟨0, _⟩ => exact lhs_shrink_0 _ _
    | ⟨1, _⟩ => exact (lhs_shrink_1 _ _).trans hk)
  have er : dot_S256x4096_S16x4096_S256x16_1_1_0_0_n_n.rhsIdx (ix2 p r) ((contrEquiv1 dot_S256x4096_S16x4096_S256x16_1_1_0_0_n_n 4096 rfl rfl).symm k) = ix2 r k := funext fun a => Fin.ext (by
    match a with
    | ⟨0, _⟩ => exact rhs_shrink_0 _ _
    | ⟨1, _⟩ => exact (rhs_shrink_1 _ _).trans hk)
  rw [el, er]

/-- The expand product, at (p, q). -/
theorem expand_apply (v : FVec Ideal S256x16 .bf16) (w : FVec Ideal S16x4096 .bf16) (p : Fin 256) (q : Fin 4096) :
    (matmul dot_S256x16_S16x4096_S256x4096_1_0_0_1_n_n none v w (constant (F := Ideal) S256x4096 .f32 0x00000000#32) : FVec Ideal S256x4096 .f32) (ix2 p q)
      = ∑ r : Fin 16, v (ix2 p r) * w (ix2 r q) := by
  simp only [matmul]
  rw [Ideal.matmul_constant_zero_apply, ← Equiv.sum_comp (contrEquiv1 dot_S256x16_S16x4096_S256x4096_1_0_0_1_n_n 16 rfl rfl).symm]
  refine Finset.sum_congr rfl fun k _ => ?_
  have hk := contrEquiv1_symm_val dot_S256x16_S16x4096_S256x4096_1_0_0_1_n_n 16 rfl rfl k
  have el : dot_S256x16_S16x4096_S256x4096_1_0_0_1_n_n.lhsIdx (ix2 p q) ((contrEquiv1 dot_S256x16_S16x4096_S256x4096_1_0_0_1_n_n 16 rfl rfl).symm k) = ix2 p k := funext fun a => Fin.ext (by
    match a with
    | ⟨0, _⟩ => exact lhs_expand_0 _ _
    | ⟨1, _⟩ => exact (lhs_expand_1 _ _).trans hk)
  have er : dot_S256x16_S16x4096_S256x4096_1_0_0_1_n_n.rhsIdx (ix2 p q) ((contrEquiv1 dot_S256x16_S16x4096_S256x4096_1_0_0_1_n_n 16 rfl rfl).symm k) = ix2 k q := funext fun a => Fin.ext (by
    match a with
    | ⟨0, _⟩ => exact (rhs_expand_0 _ _).trans hk
    | ⟨1, _⟩ => exact rhs_expand_1 _ _)
  rw [el, er]

/-- The two-stage product of a tile at (p, q): shrink, narrow (the identity on extended reals), expand. -/
theorem prod_apply (v : FVec Ideal S256x4096 .bf16) (at_ bt : FVec Ideal S16x4096 .bf16) (c16 : FVec Ideal S256x16 .f32)
    (hc : c16 = constant (F := Ideal) S256x16 .f32 0x00000000#32) (p : Fin 256) (q : Fin 4096) :
    (matmul dot_S256x16_S16x4096_S256x4096_1_0_0_1_n_n none
        (truncf .bf16 (matmul dot_S256x4096_S16x4096_S256x16_1_1_0_0_n_n none v at_ c16) bitsLt_bf16_f32)
        bt (constant (F := Ideal) S256x4096 .f32 0x00000000#32) : FVec Ideal S256x4096 .f32) (ix2 p q)
      = ∑ r : Fin 16, (∑ h : Fin 4096, v (ix2 p h) * at_ (ix2 r h)) * bt (ix2 r q) := by
  subst hc
  rw [expand_apply]
  refine Finset.sum_congr rfl fun r _ => ?_
  rw [truncf_apply, shrink_apply]

/-- One adapter's term of the kernel at a tile index (p, q): the tile's two-stage product times the indicator of
    the tile's token `p`. -/
theorem term_apply (v : FVec Ideal S256x4096 .bf16) (idx : IVec S256x1 32) (at_ bt : FVec Ideal S16x4096 .bf16)
    (iw : BitVec 32) (p : Fin 256) (q : Fin 4096) :
    (mulf
      (matmul dot_S256x16_S16x4096_S256x4096_1_0_0_1_n_n none
        (truncf .bf16 (matmul dot_S256x4096_S16x4096_S256x16_1_1_0_0_n_n none v at_ (constant (F := Ideal) S256x16 .f32 0x00000000#32)) bitsLt_bf16_f32)
        bt (constant (F := Ideal) S256x4096 .f32 0x00000000#32))
      (broadcastTo S256x4096 (sitofp .f32 (extui 32 (cmpi .eq idx (broadcast S256x1 iw)) natLt_1_32) : FVec Ideal S256x1 .f32)
        broadcasts_S256x1_S256x4096)
      : FVec Ideal S256x4096 .f32) (ix2 p q)
      = (∑ r : Fin 16, (∑ h : Fin 4096, v (ix2 p h) * at_ (ix2 r h)) * bt (ix2 r q)) * sel (idx (ix2 p 0)) iw := by
  rw [mulf_apply, expand_apply, ColumnBroadcast.broadcastTo_col_apply _ broadcasts_S256x1_S256x4096 (by decide) p q,
    sel_of_sitofp_extui idx iw natLt_1_32 (ix2 p 0)]
  refine congrArg (· * sel (idx (ix2 p 0)) iw) (Finset.sum_congr rfl fun r _ => ?_)
  rw [truncf_apply, shrink_apply]

end Cert.Lora.Ker

end
-- ==== Proof.LoraTile.lean ====
/-
  What one grid point leaves in its output tile, as one pure function of the tile's inputs.

  The body zeroes the accumulator, and for each adapter 0 … 7 loads the accumulator back, adds the adapter's masked
  update and stores it; every load of the accumulator reads the store just before it (same rectangle: the whole
  buffer).  The last statement stores `result tile + accumulator` into the output tile.  So the output tile is
  the nest  result + (((0 + u₀) + u₁) + … + u₇)  of the body's pure payload terms, where adapter `k`'s row of
  the shrink and expand stacks is the unit slice at `[k, 0, 0]` of the staged stack.

  Read at a tile index (p, q) at the ideal values, each payload is "accumulator + masked update of the tile"
  (the term lemma of the kernel's products), which gives the kernel's grouping of the specification, tile-wise.
-/
import proofs.«163808_j14139032338753_1_alg».proof.Proof.Gen.KernelIdeal.Frame
import proofs.«163808_j14139032338753_1_alg».proof.Proof.LoraKer
import Idealize.ShloMosaic.Lib.Pipeline.Value

set_option maxRecDepth 16384

noncomputable section

open scoped BigOperators

namespace Cert.Lora.Tile

open Cert.KernelIdeal Cert.KernelIdeal.Gen
open Idealize.ShloMosaic Idealize.ShloMosaic.TcCoe Idealize.ShloMosaic.Tactic Idealize.SL.Sem
open Idealize.ShloMosaic.ValueIdx Cert.Lora

theorem hz : (![0, 0] : Fin 2 → Nat) = fun _ => 0 := funext fun a => by fin_cases a <;> rfl

section AnyInstance
variable {F : FTy → Type} [FloatOps F]

/-- The output tile after the body, from the tile of `x` (`x0`), of `result` (`x1`), of the adapter words (`x2`) and
    the staged shrink and expand stacks (`x3`, `x4`): the body's payloads nested in program order. -/
def tileOut (x0 x1 : Vec F S256x4096 .f32) (x2 : Vec F S256x1 .i32) (x3 x4 : Vec F S8x16x4096 .bf16) : Vec F S256x4096 .f32 :=
  k0_pay2 x1
    (k0_pay1 (k0_pay3 x0) (k0_pay4 x2) (View.ld x3 (Rect.unit ![7, 0, 0] S1x16x4096.size inb_S8x16x4096_S1x16x4096_7_0_0)) (View.ld x4 (Rect.unit ![7, 0, 0] S1x16x4096.size inb_S8x16x4096_S1x16x4096_7_0_0))
    (k0_pay16 (k0_pay3 x0) (k0_pay4 x2) (View.ld x3 (Rect.unit ![6, 0, 0] S1x16x4096.size inb_S8x16x4096_S1x16x4096_6_0_0)) (View.ld x4 (Rect.unit ![6, 0, 0] S1x16x4096.size inb_S8x16x4096_S1x16x4096_6_0_0))
    (k0_pay15 (k0_pay3 x0) (k0_pay14 (k0_pay4 x2)) (View.ld x3 (Rect.unit ![5, 0, 0] S1x16x4096.size inb_S8x16x4096_S1x16x4096_5_0_0)) (View.ld x4 (Rect.unit ![5, 0, 0] S1x16x4096.size inb_S8x16x4096_S1x16x4096_5_0_0))
    (k0_pay13 (k0_pay3 x0) (k0_pay4 x2) (View.ld x3 (Rect.unit ![4, 0, 0] S1x16x4096.size inb_S8x16x4096_S1x16x4096_4_0_0)) (View.ld x4 (Rect.unit ![4, 0, 0] S1x16x4096.size inb_S8x16x4096_S1x16x4096_4_0_0))
    (k0_pay12 (k0_pay3 x0) (k0_pay11 (k0_pay4 x2)) (View.ld x3 (Rect.unit ![3, 0, 0] S1x16x4096.size inb_S8x16x4096_S1x16x4096_3_0_0)) (View.ld x4 (Rect.unit ![3, 0, 0] S1x16x4096.size inb_S8x16x4096_S1x16x4096_3_0_0))
    (k0_pay10 (k0_pay3 x0) (k0_pay4 x2) (View.ld x3 (Rect.unit ![2, 0, 0] S1x16x4096.size inb_S8x16x4096_S1x16x4096_2_0_0)) (View.ld x4 (Rect.unit ![2, 0, 0] S1x16x4096.size inb_S8x16x4096_S1x16x4096_2_0_0))
    (k0_pay9 (k0_pay3 x0) (k0_pay7 x2) (k0_pay8 (View.ld x3 (Rect.unit ![1, 0, 0] S1x16x4096.size inb_S8x16x4096_S1x16x4096_1_0_0))) (constant S256x16 .f32 0x00000000#32) (View.ld x4 (Rect.unit ![1, 0, 0] S1x16x4096.size inb_S8x16x4096_S1x16x4096_1_0_0))
    (k0_pay6 x0 x2 (View.ld x3 (Rect.unit ![0, 0, 0] S1x16x4096.size inb_S8x16x4096_S1x16x4096_0_0_0)) (View.ld x4 (Rect.unit ![0, 0, 0] S1x16x4096.size inb_S8x16x4096_S1x16x4096_0_0_0)) k0_pay5))))))))

/-- The pieces the body's run found for the output tile, read back, are `tileOut` of the inputs: the one store
    into the output covers it, and each load of the accumulator reads the store just before it. -/
theorem piece (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .i32) (harg3 : arg3.IsWhole) (arg4 : Memref sig .tc .vmem S8x16x4096 .bf16) (harg4 : arg4.IsWhole) (arg5 : Memref sig .tc .vmem S8x16x4096 .bf16) (harg5 : arg5.IsWhole) (arg6 : Memref sig .tc .vmem S256x4096 .f32) (harg6 : arg6.IsWhole) (arg7 : Memref sig .tc .vmem S256x4096 .f32) (harg7 : arg7.IsWhole)
    (x0 : Vec F S256x4096 .f32) (x1 : Vec F S256x4096 .f32) (x2 : Vec F S256x1 .i32) (x3 : Vec F S8x16x4096 .bf16) (x4 : Vec F S8x16x4096 .bf16) :
    out0_A_5 c i arg1 harg1 arg2 harg2 arg3 harg3 arg4 harg4 arg5 harg5 arg6 harg6 arg7 harg7 x0 x1 x2 x3 x4 = tileOut x0 x1 x2 x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero (S := S256x4096) hz]
  simp only [View.readAt_eq_ld, harg1.read_unread, harg2.read_unread, harg3.read_unread, harg4.read_unread, harg5.read_unread,
    View.ld_unit_zero (S := S256x4096) hz, View.ld_unit_zero (S := S256x1) hz, View.readCov_cons_toLoadRect]
  rfl

end AnyInstance

section AtIdeal

/-- Row `k` of a staged stack with the leading unit axis dropped: at (r, h) it is the stack at (k, r, h). -/
theorem row_apply (X : Vec Ideal S8x16x4096 .bf16) (k : Nat) (hk : k < 8)
    (inb : ∀ a, (![k, 0, 0] : Fin 3 → Nat) a + S1x16x4096.size a ≤ S8x16x4096.size a) (r : Fin 16) (h : Fin 4096) :
    (shapeCast S16x4096 (View.ld X (Rect.unit ![k, 0, 0] S1x16x4096.size inb)) shapeCasts_S1x16x4096_S16x4096 : FVec Ideal S16x4096 .bf16) (ix2 r h)
      = X (ix3 ⟨k, hk⟩ r h) := by
  refine (shapeCast_apply _ shapeCasts_S1x16x4096_S16x4096 (ix2 r h) (ix3 (0 : Fin 1) r h) ?_).trans ?_
  · rewrite [Shape.rowMajor_val_three, Shape.rowMajor_val_two]
    show (0 * 16 + r.val) * 4096 + h.val = r.val * 4096 + h.val
    omega
  · show X ((Rect.unit (s := S8x16x4096) ![k, 0, 0] S1x16x4096.size inb).idx (ix3 (0 : Fin 1) r h)) = X (ix3 ⟨k, hk⟩ r h)
    refine congrArg X (funext fun a => Fin.ext ?_)
    match a with
    | ⟨0, _⟩ => show k + 1 * 0 = k; omega
    | ⟨1, _⟩ => show 0 + 1 * r.val = r.val; omega
    | ⟨2, _⟩ => show 0 + 1 * h.val = h.val; omega

/-- Adapter `k`'s masked update of a tile at (p, q), from the tile's inputs. -/
def updT (x0 : Vec Ideal S256x4096 .f32) (x2 : Vec Ideal S256x1 .i32) (x3 x4 : Vec Ideal S8x16x4096 .bf16)
    (k : Fin 8) (iw : BitVec 32) (p : Fin 256) (q : Fin 4096) : EReal :=
  (∑ r : Fin 16, (∑ h : Fin 4096, x0 (ix2 p h) * x3 (ix3 k r h)) * x4 (ix3 k r q)) * sel (x2 (ix2 p 0)) iw

/-- Narrowing the tile of `x` changes no entry. -/
theorem pay3_apply (x0 : Vec Ideal S256x4096 .f32) (j : S256x4096.Idx) : k0_pay3 (F := Ideal) x0 j = x0 j := rfl

/-- The adapter words as loaded. -/
theorem pay4_eq (x2 : Vec Ideal S256x1 .i32) : k0_pay4 (F := Ideal) x2 = x2 := by
  unfold k0_pay4
  exact shapeCast_self _ _

/-- The zeroed accumulator. -/
theorem pay5_apply (j : S256x4096.Idx) : k0_pay5 (F := Ideal) j = 0 := by
  unfold k0_pay5
  rw [shapeCast_self]
  exact Ideal.ofBits_zero_f32

/-- The two-stage product over rows `k` of the staged stacks, times a mask entry, is the masked update. -/
theorem updT_of (x0 : Vec Ideal S256x4096 .f32) (x2 : Vec Ideal S256x1 .i32) (x3 x4 : Vec Ideal S8x16x4096 .bf16)
    (k : Nat) (hk : k < 8) (inb : ∀ a, (![k, 0, 0] : Fin 3 → Nat) a + S1x16x4096.size a ≤ S8x16x4096.size a)
    (iw : BitVec 32) (p : Fin 256) (q : Fin 4096) :
    (∑ r : Fin 16, (∑ h : Fin 4096, k0_pay3 (F := Ideal) x0 (ix2 p h)
        * (shapeCast S16x4096 (View.ld x3 (Rect.unit ![k, 0, 0] S1x16x4096.size inb)) shapeCasts_S1x16x4096_S16x4096 : FVec Ideal S16x4096 .bf16) (ix2 r h))
        * (shapeCast S16x4096 (View.ld x4 (Rect.unit ![k, 0, 0] S1x16x4096.size inb)) shapeCasts_S1x16x4096_S16x4096 : FVec Ideal S16x4096 .bf16) (ix2 r q))
      * sel (x2 (ix2 p 0)) iw
      = updT x0 x2 x3 x4 ⟨k, hk⟩ iw p q := by
  unfold updT
  refine congrArg (· * sel (x2 (ix2 p 0)) iw) (Finset.sum_congr rfl fun r _ => ?_)
  rw [row_apply x4 k hk inb r q]
  refine congrArg (· * x4 (ix3 ⟨k, hk⟩ r q)) (Finset.sum_congr rfl fun h _ => ?_)
  rw [row_apply x3 k hk inb r h, pay3_apply]

variable (x0 x1 : Vec Ideal S256x4096 .f32) (x2 : Vec Ideal S256x1 .i32) (x3 x4 : Vec Ideal S8x16x4096 .bf16)
  (acc : Vec Ideal S256x4096 .f32) (p : Fin 256) (q : Fin 4096)

/-- Adapter 0: the first accumulation. -/
theorem pay6_apply :
    k0_pay6 (F := Ideal) x0 x2 (View.ld x3 (Rect.unit ![0, 0, 0] S1x16x4096.size inb_S8x16x4096_S1x16x4096_0_0_0)) (View.ld x4 (Rect.unit ![0, 0, 0] S1x16x4096.size inb_S8x16x4096_S1x16x4096_0_0_0)) acc (ix2 p q)
      = acc (ix2 p q) + updT x0 x2 x3 x4 0 0#32 p q := by
  unfold k0_pay6
  dsimp only
  rw [shapeCast_self, addf_apply, Ker.term_apply, pay4_eq, updT_of x0 x2 x3 x4 0 (by decide)]
  rfl

/-- Adapter 1: its mask and shrink row were computed before the accumulator was reloaded. -/
theorem pay9_apply :
    k0_pay9 (F := Ideal) (k0_pay3 x0) (k0_pay7 x2) (k0_pay8 (View.ld x3 (Rect.unit ![1, 0, 0] S1x16x4096.size inb_S8x16x4096_S1x16x4096_1_0_0))) (constant S256x16 .f32 0x00000000#32) (View.ld x4 (Rect.unit ![1, 0, 0] S1x16x4096.size inb_S8x16x4096_S1x16x4096_1_0_0)) acc (ix2 p q)
      = acc (ix2 p q) + updT x0 x2 x3 x4 1 1#32 p q := by
  unfold k0_pay9 k0_pay8 k0_pay7
  dsimp only
  rw [shapeCast_self, addf_apply, Ker.term_apply, pay4_eq, updT_of x0 x2 x3 x4 1 (by decide)]
  rfl

/-- Adapter 2. -/
theorem pay10_apply :
    k0_pay10 (F := Ideal) (k0_pay3 x0) (k0_pay4 x2) (View.ld x3 (Rect.unit ![2, 0, 0] S1x16x4096.size inb_S8x16x4096_S1x16x4096_2_0_0)) (View.ld x4 (Rect.unit ![2, 0, 0] S1x16x4096.size inb_S8x16x4096_S1x16x4096_2_0_0)) acc (ix2 p q)
      = acc (ix2 p q) + updT x0 x2 x3 x4 2 2#32 p q := by
  unfold k0_pay10
  dsimp only
  rw [shapeCast_self, addf_apply, Ker.term_apply, pay4_eq, updT_of x0 x2 x3 x4 2 (by decide)]
  rfl

/-- Adapter 3: its mask was computed before the accumulator was reloaded. -/
theorem pay12_apply :
    k0_pay12 (F := Ideal) (k0_pay3 x0) (k0_pay11 (k0_pay4 x2)) (View.ld x3 (Rect.unit ![3, 0, 0] S1x16x4096.size inb_S8x16x4096_S1x16x4096_3_0_0)) (View.ld x4 (Rect.unit ![3, 0, 0] S1x16x4096.size inb_S8x16x4096_S1x16x4096_3_0_0)) acc (ix2 p q)
      = acc (ix2 p q) + updT x0 x2 x3 x4 3 3#32 p q := by
  unfold k0_pay12 k0_pay11
  dsimp only
  rw [shapeCast_self, addf_apply, Ker.term_apply, pay4_eq, updT_of x0 x2 x3 x4 3 (by decide)]
  rfl

/-- Adapter 4. -/
theorem pay13_apply :
    k0_pay13 (F := Ideal) (k0_pay3 x0) (k0_pay4 x2) (View.ld x3 (Rect.unit ![4, 0, 0] S1x16x4096.size inb_S8x16x4096_S1x16x4096_4_0_0)) (View.ld x4 (Rect.unit ![4, 0, 0] S1x16x4096.size inb_S8x16x4096_S1x16x4096_4_0_0)) acc (ix2 p q)
      = acc (ix2 p q) + updT x0 x2 x3 x4 4 4#32 p q := by
  unfold k0_pay13
  dsimp only
  rw [shapeCast_self, addf_apply, Ker.term_apply, pay4_eq, updT_of x0 x2 x3 x4 4 (by decide)]
  rfl

/-- Adapter 5: its comparison was computed before the accumulator was reloaded. -/
theorem pay15_apply :
    k0_pay15 (F := Ideal) (k0_pay3 x0) (k0_pay14 (k0_pay4 x2)) (View.ld x3 (Rect.unit ![5, 0, 0] S1x16x4096.size inb_S8x16x4096_S1x16x4096_5_0_0)) (View.ld x4 (Rect.unit ![5, 0, 0] S1x16x4096.size inb_S8x16x4096_S1x16x4096_5_0_0)) acc (ix2 p q)
      = acc (ix2 p q) + updT x0 x2 x3 x4 5 5#32 p q := by
  unfold k0_pay15 k0_pay14
  dsimp only
  rw [shapeCast_self, addf_apply, Ker.term_apply, pay4_eq, updT_of x0 x2 x3 x4 5 (by decide)]
  rfl

/-- Adapter 6. -/
theorem pay16_apply :
    k0_pay16 (F := Ideal) (k0_pay3 x0) (k0_pay4 x2) (View.ld x3 (Rect.unit ![6, 0, 0] S1x16x4096.size inb_S8x16x4096_S1x16x4096_6_0_0)) (View.ld x4 (Rect.unit ![6, 0, 0] S1x16x4096.size inb_S8x16x4096_S1x16x4096_6_0_0)) acc (ix2 p q)
      = acc (ix2 p q) + updT x0 x2 x3 x4 6 6#32 p q := by
  unfold k0_pay16
  dsimp only
  rw [shapeCast_self, addf_apply, Ker.term_apply, pay4_eq, updT_of x0 x2 x3 x4 6 (by decide)]
  rfl

/-- Adapter 7. -/
theorem pay1_apply :
    k0_pay1 (F := Ideal) (k0_pay3 x0) (k0_pay4 x2) (View.ld x3 (Rect.unit ![7, 0, 0] S1x16x4096.size inb_S8x16x4096_S1x16x4096_7_0_0)) (View.ld x4 (Rect.unit ![7, 0, 0] S1x16x4096.size inb_S8x16x4096_S1x16x4096_7_0_0)) acc (ix2 p q)
      = acc (ix2 p q) + updT x0 x2 x3 x4 7 7#32 p q := by
  unfold k0_pay1
  dsimp only
  rw [shapeCast_self, addf_apply, Ker.term_apply, pay4_eq, updT_of x0 x2 x3 x4 7 (by decide)]
  rfl

/-- THE TILE at (p, q): the tile of `result` plus the eight masked updates accumulated from zero. -/
theorem tileOut_apply :
    tileOut (F := Ideal) x0 x1 x2 x3 x4 (ix2 p q)
      = x1 (ix2 p q) + (0 + updT x0 x2 x3 x4 0 0#32 p q + updT x0 x2 x3 x4 1 1#32 p q + updT x0 x2 x3 x4 2 2#32 p q
          + updT x0 x2 x3 x4 3 3#32 p q + updT x0 x2 x3 x4 4 4#32 p q + updT x0 x2 x3 x4 5 5#32 p q
          + updT x0 x2 x3 x4 6 6#32 p q + updT x0 x2 x3 x4 7 7#32 p q) := by
  unfold tileOut k0_pay2
  dsimp only
  rw [addf_apply, pay1_apply, pay16_apply, pay15_apply, pay13_apply, pay12_apply, pay10_apply, pay9_apply, pay6_apply, pay5_apply]

end AtIdeal

end Cert.Lora.Tile

end
-- ==== Proof.LoraFinal.lean ====
/-
  From tiles to the whole array: after the kernel's run the output array is the kernel's grouping of the
  specification over the whole argument arrays.

  Grid point `t` stages rows 256·t … 256·t+255 of `x`, of `result` and of the adapter words (the words first
  reshaped to a column by the host), and the whole shrink and expand stacks (the shrink stack transposed to
  adapters × rank × features by the host; both narrowed, which is the identity on extended reals).  So at tile index
  (p, q) the tile's inputs are the arguments at token 256·t + p, the tile's masked updates are the specification's at
  that token, and what the point writes back is block `t` of the target array.  The 32 blocks tile the output:
  token `n` lies in block `n / 256`.
-/
import proofs.«163808_j14139032338753_1_alg».proof.Proof.Gen.KernelIdeal.Value
import proofs.«163808_j14139032338753_1_alg».proof.Proof.LoraTile
import Idealize.ShloMosaic.Lib.StableHlo.Run
import Idealize.ShloMosaic.Lib.Pipeline.Value

set_option maxRecDepth 16384

noncomputable section

open scoped BigOperators

namespace Cert.Lora.Final

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.Lora
open Idealize.ShloMosaic.Pipeline (Dat)

variable (m : (ℓ : Loc nD τ sig) → Buf (Elt Ideal) ℓ) (ρ : Dev nD → PrngReg)

/-! ## The arguments and the target -/

abbrev resA (c : Dev nD) : Vec Ideal S8192x4096 .f32 := m ((c : Thread nD τ).loc main_arg0)
abbrev xA (c : Dev nD) : Vec Ideal S8192x4096 .f32 := m ((c : Thread nD τ).loc main_arg1)
abbrev aA (c : Dev nD) : Vec Ideal S8x4096x16 .f32 := m ((c : Thread nD τ).loc main_arg2)
abbrev bA (c : Dev nD) : Vec Ideal S8x16x4096 .f32 := m ((c : Thread nD τ).loc main_arg3)
abbrev idxA (c : Dev nD) : Vec Ideal S8192 .i32 := m ((c : Thread nD τ).loc main_arg4)

/-- What the output array must end holding: the kernel's grouping of the specification. -/
abbrev target (c : Dev nD) : Vec Ideal S8192x4096 .f32 := kernelSum (resA m c) (xA m c) (aA m c) (bA m c) (idxA m c)

/-- Token `p` of tile `t`. -/
def tok (t : Fin cfg0.N) (p : Fin 256) : Fin 8192 :=
  ⟨t.val * 256 + p.val, by have h : t.val < 32 := lt_of_lt_of_eq t.isLt N_0; have := p.isLt; omega⟩

/-! ## The arrays the host prepares before the region -/

theorem V_v0 (c : Dev nD) :
    (V m c main_v0 : S8192x1.Idx → BitVec 32) = shapeCast S8192x1 (idxA m c) shapeCasts_S8192_S8192x1 := by
  dsimp only [Gen.V, Gen.hostOps0]; after_results; rfl

theorem V_v2 (c : Dev nD) :
    (V m c main_v2 : S8x16x4096.Idx → EReal)
      = (truncf .bf16 (transpose S8x16x4096 [0, 2, 1] (aA m c) transposes_S8x4096x16_S8x16x4096_0_2_1) bitsLt_bf16_f32 : FVec Ideal S8x16x4096 .bf16) := by
  dsimp only [Gen.V, Gen.hostOps0]; after_results

theorem V_v3 (c : Dev nD) :
    (V m c main_v3 : S8x16x4096.Idx → EReal) = (truncf .bf16 (bA m c) bitsLt_bf16_f32 : FVec Ideal S8x16x4096 .bf16) := by
  dsimp only [Gen.V, Gen.hostOps0]; after_results

/-! ## The printed index maps over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

/-! ## Each window's block at a point, read at an index -/

abbrev xblk (c : Dev nD) (t : Fin cfg0.N) : Vec Ideal S256x4096 .f32 := iblk m c 0 t
abbrev rblk (c : Dev nD) (t : Fin cfg0.N) : Vec Ideal S256x4096 .f32 := iblk m c 1 t
abbrev wblk (c : Dev nD) (t : Fin cfg0.N) : Vec Ideal S256x1 .i32 := iblk m c 2 t
abbrev ablk (c : Dev nD) (t : Fin cfg0.N) : Vec Ideal S8x16x4096 .bf16 := iblk m c 3 t
abbrev bblk (c : Dev nD) (t : Fin cfg0.N) : Vec Ideal S8x16x4096 .bf16 := iblk m c 4 t

/-- The tile of `x` at (p, h) is `x` at token 256·t + p. -/
theorem xblk_apply (c : Dev nD) (t : Fin cfg0.N) (p : Fin 256) (h : Fin 4096) :
    xblk m c t (ix2 p h) = xA m c (ix2 (tok t p) h) := by
  show V m c main_arg1 (((cfg0.win 0).blk t).view.emb (ix2 p h)) = _
  rw [V_main_arg1]
  refine congrArg (m ((c : Thread nD τ).loc main_arg1)) (funext fun a => Fin.ext ?_)
  obtain ⟨e0, e1⟩ := idx0 t
  match a with
  | ⟨0, _⟩ => show win0_0.index t (0 : Fin 2) * 256 + 1 * p.val = t.val * 256 + p.val; rw [e0]; omega
  | ⟨1, _⟩ => show win0_0.index t (1 : Fin 2) * 4096 + 1 * h.val = h.val; rw [e1]; omega

/-- The tile of `result` at (p, q) is `result` at token 256·t + p. -/
theorem rblk_apply (c : Dev nD) (t : Fin cfg0.N) (p : Fin 256) (q : Fin 4096) :
    rblk m c t (ix2 p q) = resA m c (ix2 (tok t p) q) := by
  show V m c main_arg0 (((cfg0.win 1).blk t).view.emb (ix2 p q)) = _
  rw [V_main_arg0]
  refine congrArg (m ((c : Thread nD τ).loc main_arg0)) (funext fun a => Fin.ext ?_)
  obtain ⟨e0, e1⟩ := idx1 t
  match a with
  | ⟨0, _⟩ => show win0_1.index t (0 : Fin 2) * 256 + 1 * p.val = t.val * 256 + p.val; rw [e0]; omega
  | ⟨1, _⟩ => show win0_1.index t (1 : Fin 2) * 4096 + 1 * q.val = q.val; rw [e1]; omega

/-- The tile of adapter words at (p, 0) is the word of token 256·t + p. -/
theorem wblk_apply (c : Dev nD) (t : Fin cfg0.N) (p : Fin 256) :
    wblk m c t (ix2 p 0) = idxA m c (ix1 (tok t p)) := by
  show V m c main_v0 (((cfg0.win 2).blk t).view.emb (ix2 p (0 : Fin 1))) = _
  rw [V_v0]
  refine shapeCast_apply _ shapeCasts_S8192_S8192x1 _ (ix1 (tok t p)) ?_
  obtain ⟨e0, e1⟩ := idx2 t
  rewrite [Shape.rowMajor_val_one, Shape.rowMajor_val_two]
  show t.val * 256 + p.val = (win0_2.index t (0 : Fin 2) * 256 + 1 * p.val) * 1 + (win0_2.index t (1 : Fin 2) * 1 + 1 * 0)
  rw [e0, e1]; omega

/-- The staged shrink stack at (k, r, h) is the shrink argument at (k, h, r). -/
theorem ablk_apply (c : Dev nD) (t : Fin cfg0.N) (k : Fin 8) (r : Fin 16) (h : Fin 4096) :
    ablk m c t (ix3 k r h) = aA m c (ix3 k h r) := by
  show V m c main_v2 (((cfg0.win 3).blk t).view.emb (ix3 k r h)) = _
  rw [V_v2]
  obtain ⟨e0, e1, e2⟩ := idx3 t
  have he : ((cfg0.win 3).blk t).view.emb (ix3 k r h) = ix3 k r h := funext fun a => Fin.ext (by
    match a with
    | ⟨0, _⟩ => show win0_3.index t (0 : Fin 3) * 8 + 1 * k.val = k.val; rw [e0]; omega
    | ⟨1, _⟩ => show win0_3.index t (1 : Fin 3) * 16 + 1 * r.val = r.val; rw [e1]; omega
    | ⟨2, _⟩ => show win0_3.index t (2 : Fin 3) * 4096 + 1 * h.val = h.val; rw [e2]; omega)
  rw [he, truncf_apply]
  exact transpose_apply [0, 2, 1] (aA m c) transposes_S8x4096x16_S8x16x4096_0_2_1 (ix3 k r h) (ix3 k h r) (fun b => match b with
    | ⟨0, _⟩ => rfl
    | ⟨1, _⟩ => rfl
    | ⟨2, _⟩ => rfl)

/-- The staged expand stack is the expand argument. -/
theorem bblk_apply (c : Dev nD) (t : Fin cfg0.N) (k : Fin 8) (r : Fin 16) (q : Fin 4096) :
    bblk m c t (ix3 k r q) = bA m c (ix3 k r q) := by
  show V m c main_v3 (((cfg0.win 4).blk t).view.emb (ix3 k r q)) = _
  rw [V_v3]
  obtain ⟨e0, e1, e2⟩ := idx4 t
  have he : ((cfg0.win 4).blk t).view.emb (ix3 k r q) = ix3 k r q := funext fun a => Fin.ext (by
    match a with
    | ⟨0, _⟩ => show win0_4.index t (0 : Fin 3) * 8 + 1 * k.val = k.val; rw [e0]; omega
    | ⟨1, _⟩ => show win0_4.index t (1 : Fin 3) * 16 + 1 * r.val = r.val; rw [e1]; omega
    | ⟨2, _⟩ => show win0_4.index t (2 : Fin 3) * 4096 + 1 * q.val = q.val; rw [e2]; omega)
  rw [he, truncf_apply]

/-- A tile's masked update is the specification's at the tile's token. -/
theorem updT_eq (c : Dev nD) (t : Fin cfg0.N) (k : Fin 8) (iw : BitVec 32) (p : Fin 256) (q : Fin 4096) :
    Tile.updT (xblk m c t) (wblk m c t) (ablk m c t) (bblk m c t) k iw p q
      = upd (xA m c) (aA m c) (bA m c) (idxA m c) k iw (tok t p) q := by
  unfold Tile.updT upd lowRank
  rw [wblk_apply]
  refine congrArg (· * sel (idxA m c (ix1 (tok t p))) iw) (Finset.sum_congr rfl fun r _ => ?_)
  rw [bblk_apply]
  refine congrArg (· * bA m c (ix3 k r q)) (Finset.sum_congr rfl fun h _ => ?_)
  rw [xblk_apply, ablk_apply]

/-! ## What a point writes back, the cover, the array after the run -/

/-- Index (p, q) of block `t` of the output array is (256·t + p, q). -/
theorem emb5 (t : Fin cfg0.N) (p : Fin 256) (q : Fin 4096) :
    ((cfg0.win 5).blk t).view.emb (ix2 p q) = ix2 (tok t p) q := by
  obtain ⟨e0, e1⟩ := idx5 t
  funext a; apply Fin.ext
  match a with
  | ⟨0, _⟩ => show win0_5.index t (0 : Fin 2) * 256 + 1 * p.val = t.val * 256 + p.val; rw [e0]; omega
  | ⟨1, _⟩ => show win0_5.index t (1 : Fin 2) * 4096 + 1 * q.val = q.val; rw [e1]; omega

/-- WHAT POINT `t` WRITES BACK is block `t` of the target. -/
theorem flushed_eq (c : Dev nD) (t : Fin cfg0.N) :
    (dats m 0 c).flushed 5 t = ((cfg0.win 5).blk t).view.read (Elt Ideal) (target m c) := by
  rw [flushed5_A, Tile.piece]
  funext y
  obtain ⟨p, q, rfl⟩ : ∃ (p : Fin 256) (q : Fin 4096), y = ix2 p q := ⟨y 0, y 1, eq_ix2 y⟩
  show Tile.tileOut (xblk m c t) (rblk m c t) (wblk m c t) (ablk m c t) (bblk m c t) (ix2 p q)
    = target m c (((cfg0.win 5).blk t).view.emb (ix2 p q))
  rw [emb5 t p q]
  refine (Tile.tileOut_apply (xblk m c t) (rblk m c t) (wblk m c t) (ablk m c t) (bblk m c t) p q).trans ?_
  rw [rblk_apply, updT_eq, updT_eq, updT_eq, updT_eq, updT_eq, updT_eq, updT_eq, updT_eq]
  rfl

/-- An index of the output array is in point `t`'s block iff each coordinate is in the block's range. -/
theorem mem_blk (t : Fin cfg0.N) (i : S8192x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v4).slice (win0_5.rect t)).set ↔ _
  rw [View.set_slice_whole, Rect.mem_set_unit]
  exact Iff.rfl

/-- Every index of the output array is in some point's block: token `n` in block `n / 256`. -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : (i 0).val / 256 < cfg0.N := by rw [show cfg0.N = 32 from N_0]; omega
  refine ⟨⟨(i 0).val / 256, hN⟩, flush0_5 _, ?_⟩
  rw [mem_blk]
  obtain ⟨e0, e1⟩ := idx5 ⟨(i 0).val / 256, hN⟩
  intro a
  match a with
  | ⟨0, _⟩ =>
    show win0_5.index ⟨(i 0).val / 256, hN⟩ (0 : Fin 2) * 256 ≤ (i 0).val ∧ (i 0).val < win0_5.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, hN⟩ (1 : Fin 2) * 4096 ≤ (i 1).val ∧ (i 1).val < win0_5.index ⟨(i 0).val / 256, hN⟩ (1 : Fin 2) * 4096 + 4096
    rw [e1]; omega

/-- THE OUTPUT ARRAY after the run is the target. -/
theorem final (c : Dev nD) : (dats m 0 c).arrAt 5 cfg0.N = target m c :=
  (dats m 0 c).arrAt_eq_of_cover 5 (target m c) (fun t _ => flushed_eq m c t) cover

/-- The kernel's run, re-posted: the output array at the target, the arguments unchanged. -/
theorem run : θ_run defs (onTc (τ := τ) (main (F := Ideal))) ⟨m, fun _ => 0, ρ⟩ fun r => ∀ c : Dev nD,
      r.2.mem ((c : Thread nD τ).loc main_v4) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Lora.Final

end
-- ==== Proof.lean ====
/-
  A batched low-rank (LoRA) update with a per-token adapter choice, as a tiled kernel against its jnp reference.

  Both programs compute, for every token `t` and output column `o`,
      result[t,o] + ∑ over adapters i < 8 of ((x_t · A_i) · B_i)_o · [adapter word of t = i],
  where the bracket is 1 or 0.  The reference folds the eight masked updates onto `result` from the left; the
  kernel, on tiles of 256 tokens, accumulates them from zero and adds `result` last, stages the shrink matrices
  transposed, and narrows to bf16 on the way (the identity on extended reals).  On the extended reals addition is
  associative with unit 0, so the two groupings agree everywhere, the infinities included: the claim needs no
  finiteness of the inputs and the precondition is never opened.

    * LoraSpec: the masked update and the two groupings, and that they are equal;
    * LoraOps, LoraKer, LoraRef: each program's text for one adapter, read at an index, is the masked update, and the
      reference's result is the left fold;
    * LoraTile: what a grid point leaves in its output tile, as a function of the tile's inputs;
    * LoraFinal: the tiles' inputs are the arguments at the tile's tokens, the 32 tiles cover the output, so the
      kernel's output array is the accumulate-then-add grouping over the whole arrays.

  The frames of the two kernel programs are the generated ones; the reference's frame is its generated run with the
  result dropped.  The ideal pass rewrote nothing, so the idealization statement is trivial.
-/
import proofs.«163808_j14139032338753_1_alg».proof.Defs
import proofs.«163808_j14139032338753_1_alg».proof.Proof.Gen.Kernel
import proofs.«163808_j14139032338753_1_alg».proof.Proof.Gen.Kernel.Skeleton
import proofs.«163808_j14139032338753_1_alg».proof.Proof.Gen.Kernel.Launch
import proofs.«163808_j14139032338753_1_alg».proof.Proof.Gen.Kernel.Points
import proofs.«163808_j14139032338753_1_alg».proof.Proof.Gen.Kernel.Frame
import proofs.«163808_j14139032338753_1_alg».proof.Proof.Gen.KernelIdeal
import proofs.«163808_j14139032338753_1_alg».proof.Proof.Gen.KernelIdeal.Skeleton
import proofs.«163808_j14139032338753_1_alg».proof.Proof.Gen.KernelIdeal.Launch
import proofs.«163808_j14139032338753_1_alg».proof.Proof.Gen.KernelIdeal.Points
import proofs.«163808_j14139032338753_1_alg».proof.Proof.Gen.KernelIdeal.Frame
import proofs.«163808_j14139032338753_1_alg».proof.Proof.Gen.ReferenceIdeal
import proofs.«163808_j14139032338753_1_alg».proof.Proof.Gen.Pre_finite_inputs
import proofs.«163808_j14139032338753_1_alg».proof.Proof.Gen.KernelIdeal.Value
import proofs.«163808_j14139032338753_1_alg».proof.Proof.Gen.ReferenceIdeal.Run
import proofs.«163808_j14139032338753_1_alg».proof.Proof.Gen.ReferenceIdeal.Read
import proofs.«163808_j14139032338753_1_alg».proof.Proof.LoraRef
import proofs.«163808_j14139032338753_1_alg».proof.Proof.LoraFinal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's output array is the accumulate-then-add grouping of the masked updates, the reference's result the
    left fold onto `result`, of arguments that agree: one value, by associativity of addition and `0 + u = u`. -/
theorem algebraic : Cert.algebraic_KernelIdeal_ReferenceIdeal := by
  intro m ρ m' ρ' _ hagree
  refine ⟨fun c => Cert.Lora.Final.target m c, Cert.Lora.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq, Cert.Lora.Ref.result_eq, (hagree c).1, (hagree c).2.1, (hagree c).2.2.1,
    (hagree c).2.2.2.1, (hagree c).2.2.2.2]
  exact (Cert.Lora.kernelSum_eq_refSum _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
